-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_v16) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64 : Shape := ⟨2, ![4096, 64]⟩
abbrev S4096x512 : Shape := ⟨2, ![4096, 512]⟩
abbrev S4096 : Shape := ⟨1, ![4096]⟩
abbrev S_ : Shape := ⟨0, ![]⟩

class Facts : Prop where
  bcast_S_S4096x64 : S_.BroadcastsInDim S4096x64 (![] : Fin 0 → Fin S4096x64.rank)
  reducesTo_S4096x64_S_d0_1 : S4096x64.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_

variable [Facts]

def fn {F : FTy → Type} [FloatOps F] (main_arg0 : FVec F S4096x64 .f32) (main_arg1 : FVec F S4096x512 .f32) (main_arg2 : IVec S4096 32) : IVec S_ 1 :=
  let main_v0 : FVec F S4096x64 .f32 := Host.absf main_arg0
  let main_cst : FVec F S_ .f32 := constant S_ .f32 0x7F800000#32
  let main_v1 : FVec F S4096x64 .f32 := broadcastInDim S4096x64 ![] bcast_S_S4096x64 main_cst
  let main_v2 : IVec S4096x64 1 := cmpf .olt main_v0 main_v1
  let main_c : IVec S_ 1 := constantI S_ 1 1#1
  let main_v3 : IVec S_ 1 := (fun x v => Host.reduce IntOp.andi x v reducesTo_S4096x64_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  main_v8
-- ==== Kernel.lean ====
abbrev S4096x64 : Shape := ⟨2, ![4096, 64]⟩
abbrev S4096x512 : Shape := ⟨2, ![4096, 512]⟩
abbrev S4096 : Shape := ⟨1, ![4096]⟩
abbrev S4096x64x512 : Shape := ⟨3, ![4096, 64, 512]⟩
abbrev S64x64 : Shape := ⟨2, ![64, 64]⟩
abbrev S64x512 : Shape := ⟨2, ![64, 512]⟩
abbrev S64x64x512 : Shape := ⟨3, ![64, 64, 512]⟩
abbrev S64x64x1 : Shape := ⟨3, ![64, 64, 1]⟩
abbrev S64x1x512 : Shape := ⟨3, ![64, 1, 512]⟩
abbrev S_ : Shape := ⟨0, ![]⟩

abbrev nBuf : Space → Nat
  | .hbm => 10
  | .vmem => 10
  | .smem => 0
  | _ => 0

abbrev bufTy : (tb : Table) → Fin (tcTables nBuf tb) → BufTy
  | .hbm, ⟨0, _⟩ => ⟨S4096x64, .f32⟩
  | .hbm, ⟨1, _⟩ => ⟨S4096x512, .f32⟩
  | .hbm, ⟨2, _⟩ => ⟨S4096, .i32⟩
  | .hbm, ⟨3, _⟩ => ⟨S4096x64, .f32⟩
  | .hbm, ⟨4, _⟩ => ⟨S4096x64, .i32⟩
  | .hbm, ⟨5, _⟩ => ⟨S4096x64x512, .f32⟩
  | .hbm, ⟨6, _⟩ => ⟨S_, .i32⟩
  | .hbm, ⟨7, _⟩ => ⟨S4096x64, .i32⟩
  | .hbm, ⟨8, _⟩ => ⟨S4096x64, .i1⟩
  | .hbm, ⟨9, _⟩ => ⟨S4096x64, .i1⟩
  | .local _ .vmem, ⟨0, _⟩ => ⟨S64x64, .f32⟩
  | .local _ .vmem, ⟨1, _⟩ => ⟨S64x64, .f32⟩
  | .local _ .vmem, ⟨2, _⟩ => ⟨S64x512, .f32⟩
  | .local _ .vmem, ⟨3, _⟩ => ⟨S64x512, .f32⟩
  | .local _ .vmem, ⟨4, _⟩ => ⟨S64x64, .f32⟩
  | .local _ .vmem, ⟨5, _⟩ => ⟨S64x64, .f32⟩
  | .local _ .vmem, ⟨6, _⟩ => ⟨S64x64, .i32⟩
  | .local _ .vmem, ⟨7, _⟩ => ⟨S64x64, .i32⟩
  | .local _ .vmem, ⟨8, _⟩ => ⟨S64x64x512, .f32⟩
  | .local _ .vmem, ⟨9, _⟩ => ⟨S64x64x512, .f32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x64 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S64x64_S64x64_0_0 : ∀ a, (![0, 0] : Fin 2 → Nat) a + S64x64.size a ≤ S64x64.size a
  h_S64x64 : 0 < S64x64.numel
  natLt_1_32 : 1 < 32
  inb_S64x512_S64x512_0_0 : ∀ a, (![0, 0] : Fin 2 → Nat) a + S64x512.size a ≤ S64x512.size a
  h_S64x512 : 0 < S64x512.numel
  shapeCasts_S64x64_S64x64x1 : S64x64.ShapeCasts S64x64x1
  shapeCasts_S64x512_S64x1x512 : S64x512.ShapeCasts S64x1x512
  broadcasts_S64x64x1_S64x64x512 : S64x64x1.Broadcasts S64x64x512
  broadcasts_S64x1x512_S64x64x512 : S64x1x512.Broadcasts S64x64x512
  inb_S64x64x512_S64x64x512_0_0_0 : ∀ a, (![0, 0, 0] : Fin 3 → Nat) a + S64x64x512.size a ≤ S64x64x512.size a
  h_S64x64x512 : 0 < S64x64x512.numel
  bcast_S_S4096x64 : S_.BroadcastsInDim S4096x64 (![] : Fin 0 → Fin S4096x64.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x64.size a ≤ S4096x64.size a
  hwx0_0 : ∀ i : grid0.Coords, EltTy.bits .f32 = 32 ∨ (Rect.block (s := S4096x64) S64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x512.size a ≤ S4096x512.size a
  hwx0_1 : ∀ i : grid0.Coords, EltTy.bits .f32 = 32 ∨ (Rect.block (s := S4096x512) S64x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S4096x64.size a
  hwx0_2 : ∀ i : grid0.Coords, EltTy.bits .f32 = 32 ∨ (Rect.block (s := S4096x64) S64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S4096x64.size a
  hwx0_3 : ∀ i : grid0.Coords, EltTy.bits .i32 = 32 ∨ (Rect.block (s := S4096x64) S64x64.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x64x512.size a ≤ S4096x64x512.size a
  hwx0_4 : ∀ i : grid0.Coords, EltTy.bits .f32 = 32 ∨ (Rect.block (s := S4096x64x512) S64x64x512.size (cc0_transform_4 i) (hinb0_4 i)).WholeWords (EltTy.packing .f32)

variable [Facts₀]

abbrev win0_0 : Pipeline.Window sig grid0 :=
  Pipeline.Window.ofSpec (Memref.whole main_arg0) S64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S64x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S64x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S64x64x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x64 : Shape := ⟨2, ![4096, 64]⟩
abbrev S4096x512 : Shape := ⟨2, ![4096, 512]⟩
abbrev S4096 : Shape := ⟨1, ![4096]⟩
abbrev S_ : Shape := ⟨0, ![]⟩
abbrev S4096x64x1 : Shape := ⟨3, ![4096, 64, 1]⟩
abbrev S4096x1x512 : Shape := ⟨3, ![4096, 1, 512]⟩
abbrev S4096x64x512 : Shape := ⟨3, ![4096, 64, 512]⟩

abbrev nBuf : Space → Nat
  | .hbm => 28
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S4096x512, .f32⟩
  | .hbm, ⟨2, _⟩ => ⟨S4096, .i32⟩
  | .hbm, ⟨3, _⟩ => ⟨S_, .f32⟩
  | .hbm, ⟨4, _⟩ => ⟨S4096x64, .f32⟩
  | .hbm, ⟨5, _⟩ => ⟨S4096x64, .f32⟩
  | .hbm, ⟨6, _⟩ => ⟨S4096x64, .f32⟩
  | .hbm, ⟨7, _⟩ => ⟨S_, .f32⟩
  | .hbm, ⟨8, _⟩ => ⟨S4096x64, .f32⟩
  | .hbm, ⟨9, _⟩ => ⟨S4096x64, .f32⟩
  | .hbm, ⟨10, _⟩ => ⟨S_, .f32⟩
  | .hbm, ⟨11, _⟩ => ⟨S4096x64, .f32⟩
  | .hbm, ⟨12, _⟩ => ⟨S4096x64, .f32⟩
  | .hbm, ⟨13, _⟩ => ⟨S_, .f32⟩
  | .hbm, ⟨14, _⟩ => ⟨S4096x64, .f32⟩
  | .hbm, ⟨15, _⟩ => ⟨S4096x64, .f32⟩
  | .hbm, ⟨16, _⟩ => ⟨S_, .f32⟩
  | .hbm, ⟨17, _⟩ => ⟨S4096x64, .f32⟩
  | .hbm, ⟨18, _⟩ => ⟨S4096x64, .i1⟩
  | .hbm, ⟨19, _⟩ => ⟨S_, .f32⟩
  | .hbm, ⟨20, _⟩ => ⟨S_, .f32⟩
  | .hbm, ⟨21, _⟩ => ⟨S4096x64, .f32⟩
  | .hbm, ⟨22, _⟩ => ⟨S4096x64, .f32⟩
  | .hbm, ⟨23, _⟩ => ⟨S4096x64x1, .f32⟩
  | .hbm, ⟨24, _⟩ => ⟨S4096x1x512, .f32⟩
  | .hbm, ⟨25, _⟩ => ⟨S4096x64x512, .f32⟩
  | .hbm, ⟨26, _⟩ => ⟨S4096x64x512, .f32⟩
  | .hbm, ⟨27, _⟩ => ⟨S4096x64x512, .f32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_cst_4 : Ref sig .tc := ⟨.hbm, 19, rfl⟩
abbrev main_call0_v0 : Ref sig .tc := ⟨.hbm, 20, rfl⟩
abbrev main_call0_v1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩

abbrev nD : Nat := 1
abbrev τ : Topo := Topo.v7x

variable {F : FTy → Type} [FloatOps F]

class Facts₀ : Prop where
  bcast_S_S4096x64 : S_.BroadcastsInDim S4096x64 (![] : Fin 0 → Fin S4096x64.rank)
  bcast_S4096x64_S4096x64x1_0_1 : S4096x64.BroadcastsInDim S4096x64x1 (![0, 1] : Fin 2 → Fin S4096x64x1.rank)
  bcast_S4096x512_S4096x1x512_0_2 : S4096x512.BroadcastsInDim S4096x1x512 (![0, 2] : Fin 2 → Fin S4096x1x512.rank)
  bcast_S4096x64x1_S4096x64x512_0_1_2 : S4096x64x1.BroadcastsInDim S4096x64x512 (![0, 1, 2] : Fin 3 → Fin S4096x64x512.rank)
  bcast_S4096x1x512_S4096x64x512_0_1_2 : S4096x1x512.BroadcastsInDim S4096x64x512 (![0, 1, 2] : Fin 3 → Fin S4096x64x512.rank)

variable [Facts₀]

class Facts : Prop extends Facts₀ where

variable [Facts]
-- ==== Proof.GateLaw.lean ====
/-
  The soft gate's one algebraic fact, on the extended reals.

  The kernel spells the fourth power of `x / a` (with `a = 1`) as two squarings, `((x·1)·(x·1))·((x·1)·(x·1))`; the
  reference divides by `a`, takes the absolute value and raises it to the real exponent `4`. On every extended real
  the two agree: dividing by one and multiplying by one change nothing; for a real `r` the real power `|r| ^ (4 : ℝ)`
  is the natural power `|r| ^ 4 = r ^ 4 = (r·r)·(r·r)`; and at either infinity the absolute value is `⊤`, whose
  positive power is `⊤`, as is `(±∞)·(±∞)` squared. No finiteness is used.
-/
import Idealize.ShloMosaic.PureOps.Ideal
import Idealize.ShloMosaic.PureOps.Ideal.Laws
import Idealize.ShloMosaic.Lib.IdealHost
import Mathlib.Analysis.SpecialFunctions.Pow.Real

noncomputable section

namespace Cert.GateLaw

open Idealize.ShloMosaic

/-- The f32 pattern `0x40800000` is the real four. -/
theorem ofBits_four_f32 : Ideal.ofBits .f32 0x40800000#32 = ((4 : ℝ) : EReal) := by
  simp [Ideal.ofBits, Ideal.ieee, -EReal.coe_mul]; norm_num

/-- Division by one is the identity on the extended reals. -/
theorem div_one (x : EReal) : Ideal.div x 1 = x := by
  have h := Ideal.div_coe (y := (1 : ℝ)) one_ne_zero x
  rw [show ((1 : ℝ) : EReal) = 1 by norm_cast] at h
  rw [h]
  norm_num

/-- The real power `4` of the absolute value is the product of two squares, on every extended real. -/
theorem abs_pow_four (x : EReal) : Ideal.pow (max x (-x)) ((4 : ℝ) : EReal) = (x * x) * (x * x) := by
  induction x using EReal.rec with
  | bot =>
    have h : max (⊥ : EReal) (-⊥) = ⊤ := by simp
    rw [h, Ideal.pow_top]
    have h4 : (0 : EReal) < ((4 : ℝ) : EReal) := by exact_mod_cast (by norm_num : (0 : ℝ) < 4)
    rw [if_pos h4]
    simp
  | top =>
    have h : max (⊤ : EReal) (-⊤) = ⊤ := by simp
    rw [h, Ideal.pow_top]
    have h4 : (0 : EReal) < ((4 : ℝ) : EReal) := by exact_mod_cast (by norm_num : (0 : ℝ) < 4)
    rw [if_pos h4]
    simp
  | coe r =>
    have h : max (r : EReal) (-(r : EReal)) = ((|r| : ℝ) : EReal) := by
      rw [← EReal.coe_neg, abs_eq_max_neg]
      exact (EReal.coe_strictMono.monotone.map_max).symm
    rw [h, Ideal.pow_coe_coe]
    rw [← EReal.coe_mul, ← EReal.coe_mul]
    congr 1
    show |r| ^ (4 : ℝ) = r * r * (r * r)
    rw [show (4 : ℝ) = ((4 : ℕ) : ℝ) by norm_num, Real.rpow_natCast]
    have : |r| ^ 4 = r ^ 4 := by
      rw [show (4 : ℕ) = 2 * 2 by norm_num, pow_mul, pow_mul, sq_abs]
    rw [this]; ring

/-- The two spellings of the fourth power of `x / 1`. -/
theorem fourth_power (x : EReal) :
    Ideal.pow (max (Ideal.div x 1) (-(Ideal.div x 1))) ((4 : ℝ) : EReal) = ((x * 1) * (x * 1)) * ((x * 1) * (x * 1)) := by
  rw [div_one, mul_one, abs_pow_four]

end Cert.GateLaw

end
-- ==== Proof.GateSpec.lean ====
/-
  What the gate computes, as functions of the argument arrays.

  For an entry `x` the soft gate is `g = 1 / (1 + x⁴)`, the fourth power spelt as the square of the square of `x · 1`
  (the scale `a` is one). An entry is routed when `g ≥ 1/2`; the weight is `g` where routed and zero elsewhere; and the
  dispatched tensor at `(b, p, d)` is the weight of `x[b, p]` times `act[b, d]`. The reference reaches the same gate as
  `1 / (1 + |x / 1| ^ 4)` with a real exponent: `ref_gate`, by the law of the fourth power.
-/
import Idealize.ShloMosaic.PureOps
import Idealize.ShloMosaic.PureOps.Ideal
import Idealize.ShloMosaic.Lib.ValueIdx
import Idealize.ShloMosaic.Lib.IdealHost
import proofs.«175300_j74062416052252_1_alg».proof.Proof.GateLaw

noncomputable section

namespace Cert.GateSpec

open Idealize.ShloMosaic Idealize.ShloMosaic.ValueIdx

variable {F : FTy → Type} [FloatOps F]

/-- The gate's input `x`: 4096 rows of 64 nodes. -/
abbrev SX : Shape := ⟨2, ![4096, 64]⟩
/-- The activations: 4096 rows of width 512. -/
abbrev SA : Shape := ⟨2, ![4096, 512]⟩
/-- The dispatched tensor: row, node, feature. -/
abbrev SD : Shape := ⟨3, ![4096, 64, 512]⟩

/-- The soft gate `1 / (1 + x⁴)` at one entry, `x⁴` as `((x·1)·(x·1))·((x·1)·(x·1))`. -/
def gate (x : F .f32) : F .f32 :=
  FloatOps.divf (FloatOps.ofBits .f32 0x3F800000#32)
    (FloatOps.addf (FloatOps.ofBits .f32 0x3F800000#32)
      (FloatOps.mulf
        (FloatOps.mulf (FloatOps.mulf x (FloatOps.ofBits .f32 0x3F800000#32)) (FloatOps.mulf x (FloatOps.ofBits .f32 0x3F800000#32)))
        (FloatOps.mulf (FloatOps.mulf x (FloatOps.ofBits .f32 0x3F800000#32)) (FloatOps.mulf x (FloatOps.ofBits .f32 0x3F800000#32)))))

/-- The routing decision: the gate is at least one half. -/
def routed (x : F .f32) : BitVec 1 := FloatOps.cmpf .oge (gate x) (FloatOps.ofBits .f32 0x3F000000#32)

/-- The gate where routed, zero elsewhere. -/
def weight (x : F .f32) : F .f32 := Scalar.select (routed x) (gate x) (FloatOps.ofBits .f32 0x00000000#32)

/-- The gate of every entry. -/
def gateArr (x : SX.Idx → F .f32) : SX.Idx → F .f32 := fun i => gate (x i)

/-- The routing decision of every entry, as a bit. -/
def routedArr (x : SX.Idx → F .f32) : SX.Idx → BitVec 1 := fun i => routed (x i)

/-- The routing decision of every entry, widened to a word (zero or one). -/
def routedWord (x : SX.Idx → F .f32) : SX.Idx → BitVec 32 := fun i => (routed (x i)).setWidth 32

/-- The dispatched tensor: at `(b, p, d)` the weight of `x[b, p]` times `act[b, d]`. -/
def dispatchArr (x : SX.Idx → F .f32) (act : SA.Idx → F .f32) : SD.Idx → F .f32 :=
  fun j => FloatOps.mulf (weight (x (ix2 (j 0) (j 1)))) (act (ix2 (j 0) (j 2)))

/-- A bit widened to a word is nonzero exactly when the bit is set. -/
theorem ne_zero_setWidth : ∀ b : BitVec 1, IntOp.cmpi .ne (b.setWidth 32) 0#32 = b := by decide

/-- The reference's spelling of the gate, `1 / (1 + |x / 1| ^ 4)`, is the gate: on the extended reals the real power
    `4` of `|x / 1|` is the square of the square of `x · 1`. -/
theorem ref_gate (x : Ideal .f32) :
    FloatOps.hostDivf (FloatOps.ofBits .f32 0x3F800000#32)
      (FloatOps.addf (FloatOps.ofBits .f32 0x3F800000#32)
        (FloatOps.hostPowf (FloatOps.hostAbsf (FloatOps.hostDivf x (FloatOps.ofBits .f32 0x3F800000#32)))
          (FloatOps.ofBits .f32 0x40800000#32)))
      = gate (F := Ideal) x := by
  unfold gate
  have habs : ∀ y : Ideal .f32, FloatOps.absf y = max y (-y) := fun _ => rfl
  simp only [Ideal.hostDivf_def, Ideal.divf_def, Ideal.addf_def, Ideal.hostPowf_def, Ideal.hostAbsf_def, Ideal.mulf_def,
    Ideal.ofBits_def, Ideal.ofBits_one_f32, Cert.GateLaw.ofBits_four_f32, habs]
  rw [Cert.GateLaw.fourth_power]

end Cert.GateSpec

end
-- ==== Proof.LibKeepdims3.lean ====
/-
  A rank-2 array given a unit axis and broadcast along it, read at an index: the four layout steps behind an outer
  product `w[:, :, None] * a[:, None, :]`. A `[a, b]` array cast to `[a, b, 1]` or to `[a, 1, c]` keeps its row-major
  order, so its entry at the new index is the entry at the old coordinates; a broadcast along a unit axis reads the
  operand at coordinate zero of that axis.
-/
import Idealize.ShloMosaic.Lib.Pipeline.Value
import Idealize.ShloMosaic.Lib.ValueIdx

namespace Cert.LibKeepdims3

open Idealize.ShloMosaic Idealize.ShloMosaic.ValueIdx

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, c]` array cast to `[a, 1, c]` reads, at `(i, u, k)`, the operand at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

end Cert.LibKeepdims3
-- ==== Proof.KernelValue.lean ====
/-
  What the kernel's three results hold after its run, as the specification's functions of the argument arrays.

  The grid has 64 points; point `t` works on rows `64·t … 64·t + 63` of every array, all of every other axis. Its body
  stores, entry by entry, the gate of the `x` block, the routing decision widened to a word, and for `(p, q, d)` the
  weight of `x[p, q]` times `act[p, d]` (a `[64, 64]` array given a trailing unit axis and a `[64, 512]` array given a
  middle one, each broadcast to `[64, 64, 512]`, then multiplied). Every window's block at `t` sits at the same rows, so
  what point `t` writes back is block `t` of one whole-array function of the arguments, and since the blocks tile the
  arrays (row `r` lies in block `r / 64`) each output array ends holding that function. After the region the host turns
  the mask word back into a bit by comparing it with zero, which gives back the routing decision.
-/
import proofs.«175300_j74062416052252_1_alg».proof.Proof.Gen.KernelIdeal.Frame
import Idealize.ShloMosaic.Lib.Pipeline.Value
import Idealize.ShloMosaic.Lib.ValueIdx
import Idealize.ShloMosaic.Lib.IdealHost
import proofs.«175300_j74062416052252_1_alg».proof.Proof.GateSpec
import proofs.«175300_j74062416052252_1_alg».proof.Proof.LibKeepdims3

set_option maxRecDepth 16384

noncomputable section

namespace Cert.KernelIdeal.GateValue

open Cert.KernelIdeal Cert.KernelIdeal.Gen Idealize.ShloMosaic Idealize.ShloMosaic.TcCoe Idealize.SL.Sem
open Idealize.ShloMosaic.ValueIdx
open Idealize.ShloMosaic.Pipeline (Dat)
open Cert.GateSpec (gate routed weight gateArr routedArr routedWord dispatchArr)

variable {F : FTy → Type} [FloatOps F]
variable (m : (ℓ : Loc nD τ sig) → Buf (Elt F) ℓ) (ρ : Dev nD → PrngReg)

/-! ## The body's stored values at an index -/

/-- The first store's value at an entry is the gate of the loaded entry. -/
theorem pay1_apply (v0 : Vec F S64x64 .f32) (i : S64x64.Idx) : k0_pay1 v0 i = gate (v0 i) := rfl

/-- The second store's value at an entry is the routing decision of the loaded entry, widened to a word. -/
theorem pay3_apply (v0 : Vec F S64x64 .f32) (i : S64x64.Idx) : k0_pay3 v0 i = (routed (v0 i)).setWidth 32 := rfl

/-- The third store's value at `(p, q, d)` is the weight of the loaded `x[p, q]` times the loaded `act[p, d]`: each
    operand is given a unit axis and broadcast along it, so it is read at the coordinates it has. -/
theorem pay4_apply (v0 : Vec F S64x64 .f32) (v17 : Vec F S64x512 .f32) (p : Fin 64) (q : Fin 64) (d : Fin 512) :
    k0_pay4 v0 v17 (ix3 p q d) = FloatOps.mulf (weight (v0 (ix2 p q))) (v17 (ix2 p d)) := by
  unfold k0_pay4
  show FloatOps.mulf (broadcastTo S64x64x512 (shapeCast S64x64x1 _ shapeCasts_S64x64_S64x64x1) broadcasts_S64x64x1_S64x64x512 (ix3 p q d))
      (broadcastTo S64x64x512 (shapeCast S64x1x512 v17 shapeCasts_S64x512_S64x1x512) broadcasts_S64x1x512_S64x64x512 (ix3 p q d)) = _
  rw [Cert.LibKeepdims3.broadcastTo_ab1_abc_apply, Cert.LibKeepdims3.shapeCast_ab_ab1_apply,
    Cert.LibKeepdims3.broadcastTo_a1c_abc_apply, Cert.LibKeepdims3.shapeCast_ac_a1c_apply]
  rfl

/-! ## The windows' index maps -/

/-- The rank-2 origin. -/
theorem hz2 : (![0, 0] : Fin 2 → Nat) = fun _ => 0 := funext fun a => by fin_cases a <;> rfl
/-- The rank-3 origin. -/
theorem hz3 : (![0, 0, 0] : Fin 3 → Nat) = fun _ => 0 := funext fun a => by fin_cases a <;> rfl

/-- Every window's block index at point `t` is `t` along the rows and zero along the other axes. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-! ## Window 2: the gate -/

/-- What point `t` writes back to the gate's array is block `t` of the gate of `x`: the `x` block and the output block
    sit at the same rows. -/
theorem flushed2_eq (c : Dev nD) (t : Fin cfg0.N) :
    (dats m 0 c).flushed 2 t = ((cfg0.win 2).blk t).view.read (Elt F) (gateArr (V m c main_arg0)) := by
  show (cfg0.win 2).cut (grid0.coords t) ((dats m 0 c).after 2 t) = _
  rw [after0_2]
  unfold out0_2
  rw [View.canon_unit_zero hz2]
  simp only [View.ld_unit_zero (S := S64x64) hz2]
  obtain ⟨e00, e01, e10, e11, e20, e21, e30, e31, e40, e41, e42⟩ := idx_facts t
  funext j
  show gate (V m c main_arg0 (((cfg0.win 0).blk t).view.emb j)) = gate (V m c main_arg0 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 64 + 1 * (j 0).val = win0_2.index t (0 : Fin 2) * 64 + 1 * (j 0).val; omega
    | ⟨1, _⟩ => show win0_0.index t (1 : Fin 2) * 64 + 1 * (j 1).val = win0_2.index t (1 : Fin 2) * 64 + 1 * (j 1).val; omega
  rw [h0]

/-- An index of the gate's array is in point `t`'s block iff each coordinate is in the block's range on its axis. -/
theorem mem_blk2 (t : Fin cfg0.N) (i : S4096x64.Idx) :
    i ∈ ((cfg0.win 2).blk t).view.set ↔ ∀ a : Fin 2, win0_2.index t a * S64x64.size a ≤ (i a).val ∧ (i a).val < win0_2.index t a * S64x64.size a + S64x64.size a := by
  show i ∈ ((View.whole main_v0_0).slice (win0_2.rect t)).set ↔ _
  rw [View.set_slice_whole, Rect.mem_set_unit]
  exact Iff.rfl

/-- Every index of the gate's array is in some point's block: row `r` is in block `r / 64`. -/
theorem cover2 (i : S4096x64.Idx) : ∃ t : Fin cfg0.N, (cfg0.win 2).flush t = true ∧ i ∈ ((cfg0.win 2).blk t).view.set := by
  have hi0 : (i 0).val < 4096 := (i 0).isLt
  have hi1 : (i 1).val < 64 := (i 1).isLt
  let t : Fin cfg0.N := ⟨(i 0).val / 64, by show (i 0).val / 64 < grid0.N; rw [N_0]; omega⟩
  obtain ⟨e00, e01, e10, e11, e20, e21, e30, e31, e40, e41, e42⟩ := idx_facts t
  have ht : t.val = (i 0).val / 64 := rfl
  refine ⟨t, flush0_2 t, ?_⟩
  rw [mem_blk2]
  intro a
  match a with
  | ⟨0, _⟩ => show win0_2.index t (0 : Fin 2) * 64 ≤ (i 0).val ∧ (i 0).val < win0_2.index t (0 : Fin 2) * 64 + 64; omega
  | ⟨1, _⟩ => show win0_2.index t (1 : Fin 2) * 64 ≤ (i 1).val ∧ (i 1).val < win0_2.index t (1 : Fin 2) * 64 + 64; omega

/-- The gate's array after the run is the gate of `x`, everywhere. -/
theorem final2 (c : Dev nD) : (dats m 0 c).arrAt 2 cfg0.N = gateArr (V m c main_arg0) :=
  (dats m 0 c).arrAt_eq_of_cover 2 (gateArr (V m c main_arg0)) (fun t _ => flushed2_eq m c t) cover2

/-! ## Window 3: the routing decision as a word -/

/-- What point `t` writes back to the mask word's array is block `t` of the widened routing decision of `x`. -/
theorem flushed3_eq (c : Dev nD) (t : Fin cfg0.N) :
    (dats m 0 c).flushed 3 t = ((cfg0.win 3).blk t).view.read (Elt F) (routedWord (V m c main_arg0)) := by
  show (cfg0.win 3).cut (grid0.coords t) ((dats m 0 c).after 3 t) = _
  rw [after0_3]
  unfold out0_3
  rw [View.canon_unit_zero hz2]
  simp only [View.ld_unit_zero (S := S64x64) hz2]
  obtain ⟨e00, e01, e10, e11, e20, e21, e30, e31, e40, e41, e42⟩ := idx_facts t
  funext j
  show (routed (V m c main_arg0 (((cfg0.win 0).blk t).view.emb j))).setWidth 32 = (routed (V m c main_arg0 (((cfg0.win 3).blk t).view.emb j))).setWidth 32
  have h0 : ((cfg0.win 0).blk t).view.emb j = ((cfg0.win 3).blk t).view.emb j := by
    funext a; apply Fin.ext
    match a with
    | ⟨0, _⟩ => show win0_0.index t (0 : Fin 2) * 64 + 1 * (j 0).val = win0_3.index t (0 : Fin 2) * 64 + 1 * (j 0).val; omega
    | ⟨1, _⟩ => show win0_0.index t (1 : Fin 2) * 64 + 1 * (j 1).val = win0_3.index t (1 : Fin 2) * 64 + 1 * (j 1).val; omega
  rw [h0]

/-- An index of the mask word's array is in point `t`'s block iff each coordinate is in the block's range. -/
theorem mem_blk3 (t : Fin cfg0.N) (i : S4096x64.Idx) :
    i ∈ ((cfg0.win 3).blk t).view.set ↔ ∀ a : Fin 2, win0_3.index t a * S64x64.size a ≤ (i a).val ∧ (i a).val < win0_3.index t a * S64x64.size a + S64x64.size a := by
  show i ∈ ((View.whole main_v0_1).slice (win0_3.rect t)).set ↔ _
  rw [View.set_slice_whole, Rect.mem_set_unit]
  exact Iff.rfl

/-- Every index of the mask word's array is in some point's block. -/
theorem cover3 (i : S4096x64.Idx) : ∃ t : Fin cfg0.N, (cfg0.win 3).flush t = true ∧ i ∈ ((cfg0.win 3).blk t).view.set := by
  have hi0 : (i 0).val < 4096 := (i 0).isLt
  have hi1 : (i 1).val < 64 := (i 1).isLt
  let t : Fin cfg0.N := ⟨(i 0).val / 64, by show (i 0).val / 64 < grid0.N; rw [N_0]; omega⟩
  obtain ⟨e00, e01, e10, e11, e20, e21, e30, e31, e40, e41, e42⟩ := idx_facts t
  have ht : t.val = (i 0).val / 64 := rfl
  refine ⟨t, flush0_3 t, ?_⟩
  rw [mem_blk3]
  intro a
  match a with
  | ⟨0, _⟩ => show win0_3.index t (0 : Fin 2) * 64 ≤ (i 0).val ∧ (i 0).val < win0_3.index t (0 : Fin 2) * 64 + 64; omega
  | ⟨1, _⟩ => show win0_3.index t (1 : Fin 2) * 64 ≤ (i 1).val ∧ (i 1).val < win0_3.index t (1 : Fin 2) * 64 + 64; omega

/-- The mask word's array after the run is the widened routing decision of `x`, everywhere. -/
theorem final3 (c : Dev nD) : (dats m 0 c).arrAt 3 cfg0.N = routedWord (V m c main_arg0) :=
  (dats m 0 c).arrAt_eq_of_cover 3 (routedWord (V m c main_arg0)) (fun t _ => flushed3_eq m c t) cover3

/-! ## Window 4: the dispatched tensor -/

/-- What point `t` writes back to the dispatched tensor is block `t` of `weight x[b, p] · act[b, d]`: the `x` block, the
    `act` block and the output block all sit at rows `64·t …`, and the output block spans all nodes and features. -/
theorem flushed4_eq (c : Dev nD) (t : Fin cfg0.N) :
    (dats m 0 c).flushed 4 t = ((cfg0.win 4).blk t).view.read (Elt F) (dispatchArr (V m c main_arg0) (V m c main_arg1)) := by
  show (cfg0.win 4).cut (grid0.coords t) ((dats m 0 c).after 4 t) = _
  rw [after0_4]
  unfold out0_4
  rw [View.canon_unit_zero hz3]
  simp only [View.ld_unit_zero (S := S64x64) hz2, View.ld_unit_zero (S := S64x512) hz2]
  obtain ⟨e00, e01, e10, e11, e20, e21, e30, e31, e40, e41, e42⟩ := idx_facts t
  funext j
  obtain ⟨p, q, d, rfl⟩ : ∃ (p : Fin 64) (q : Fin 64) (d : Fin 512), j = ix3 p q d := ⟨j 0, j 1, j 2, eq_ix3 j⟩
  refine (pay4_apply (iblk m c 0 t) (iblk m c 1 t) p q d).trans ?_
  show FloatOps.mulf (weight (V m c main_arg0 (((cfg0.win 0).blk t).view.emb (ix2 p q)))) (V m c main_arg1 (((cfg0.win 1).blk t).view.emb (ix2 p d)))
    = FloatOps.mulf (weight (V m c main_arg0 (ix2 ((((cfg0.win 4).blk t).view.emb (ix3 p q d)) 0) ((((cfg0.win 4).blk t).view.emb (ix3 p q d)) 1))))
        (V m c main_arg1 (ix2 ((((cfg0.win 4).blk t).view.emb (ix3 p q d)) 0) ((((cfg0.win 4).blk t).view.emb (ix3 p q d)) 2)))
  have h0 : ((cfg0.win 0).blk t).view.emb (ix2 p q) = ix2 ((((cfg0.win 4).blk t).view.emb (ix3 p q d)) 0) ((((cfg0.win 4).blk t).view.emb (ix3 p q d)) 1) := by
    funext a; apply Fin.ext
    match a with
    | ⟨0, _⟩ => show win0_0.index t (0 : Fin 2) * 64 + 1 * p.val = win0_4.index t (0 : Fin 3) * 64 + 1 * p.val; omega
    | ⟨1, _⟩ => show win0_0.index t (1 : Fin 2) * 64 + 1 * q.val = win0_4.index t (1 : Fin 3) * 64 + 1 * q.val; omega
  have h1 : ((cfg0.win 1).blk t).view.emb (ix2 p d) = ix2 ((((cfg0.win 4).blk t).view.emb (ix3 p q d)) 0) ((((cfg0.win 4).blk t).view.emb (ix3 p q d)) 2) := by
    funext a; apply Fin.ext
    match a with
    | ⟨0, _⟩ => show win0_1.index t (0 : Fin 2) * 64 + 1 * p.val = win0_4.index t (0 : Fin 3) * 64 + 1 * p.val; omega
    | ⟨1, _⟩ => show win0_1.index t (1 : Fin 2) * 512 + 1 * d.val = win0_4.index t (2 : Fin 3) * 512 + 1 * d.val; omega
  rw [h0, h1]
  rfl

/-- An index of the dispatched tensor is in point `t`'s block iff each coordinate is in the block's range. -/
theorem mem_blk4 (t : Fin cfg0.N) (i : S4096x64x512.Idx) :
    i ∈ ((cfg0.win 4).blk t).view.set ↔ ∀ a : Fin 3, win0_4.index t a * S64x64x512.size a ≤ (i a).val ∧ (i a).val < win0_4.index t a * S64x64x512.size a + S64x64x512.size a := by
  show i ∈ ((View.whole main_v0_2).slice (win0_4.rect t)).set ↔ _
  rw [View.set_slice_whole, Rect.mem_set_unit]
  exact Iff.rfl

/-- Every index of the dispatched tensor is in some point's block: row `r` is in block `r / 64`. -/
theorem cover4 (i : S4096x64x512.Idx) : ∃ t : Fin cfg0.N, (cfg0.win 4).flush t = true ∧ i ∈ ((cfg0.win 4).blk t).view.set := by
  have hi0 : (i 0).val < 4096 := (i 0).isLt
  have hi1 : (i 1).val < 64 := (i 1).isLt
  have hi2 : (i 2).val < 512 := (i 2).isLt
  let t : Fin cfg0.N := ⟨(i 0).val / 64, by show (i 0).val / 64 < grid0.N; rw [N_0]; omega⟩
  obtain ⟨e00, e01, e10, e11, e20, e21, e30, e31, e40, e41, e42⟩ := idx_facts t
  have ht : t.val = (i 0).val / 64 := rfl
  refine ⟨t, flush0_4 t, ?_⟩
  rw [mem_blk4]
  intro a
  match a with
  | ⟨0, _⟩ => show win0_4.index t (0 : Fin 3) * 64 ≤ (i 0).val ∧ (i 0).val < win0_4.index t (0 : Fin 3) * 64 + 64; omega
  | ⟨1, _⟩ => show win0_4.index t (1 : Fin 3) * 64 ≤ (i 1).val ∧ (i 1).val < win0_4.index t (1 : Fin 3) * 64 + 64; omega
  | ⟨2, _⟩ => show win0_4.index t (2 : Fin 3) * 512 ≤ (i 2).val ∧ (i 2).val < win0_4.index t (2 : Fin 3) * 512 + 512; omega

/-- The dispatched tensor after the run is `weight x[b, p] · act[b, d]`, everywhere. -/
theorem final4 (c : Dev nD) : (dats m 0 c).arrAt 4 cfg0.N = dispatchArr (V m c main_arg0) (V m c main_arg1) :=
  (dats m 0 c).arrAt_eq_of_cover 4 (dispatchArr (V m c main_arg0) (V m c main_arg1)) (fun t _ => flushed4_eq m c t) cover4

/-! ## The mask after the region -/

/-- After the region the host compares the mask word with zero: a bit widened to a word is nonzero exactly when the
    bit is set, so the result is the routing decision itself. -/
theorem tail_v3 (c : Dev nD) :
    Pipeline.afterTail₀ cfgs (dats m) 0 (V0 m) [hostOps1] c main_v3 = routedArr (V m c main_arg0) := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v0_1)
      = routedWord (V m c main_arg0) :=
    (Pipeline.withArrays_arr spec0 launch0.win.arr_inj c _ _ 3).trans (final3 m c)
  rw [e]
  funext i
  show IntOp.cmpi .ne ((routed (V m c main_arg0 i)).setWidth 32)
      (broadcastInDim S4096x64 ![] bcast_S_S4096x64 (constantI S_ 32 0#32) i) = routed (V m c main_arg0 i)
  rw [broadcastInDim_scalar_apply]
  exact Cert.GateSpec.ne_zero_setWidth _

/-! ## The run, read -/

/-- The kernel's run: the three results are the specification's arrays of the arguments, the arguments unchanged. -/
theorem run : θ_run defs (onTc (τ := τ) (main (F := F))) ⟨m, fun _ => 0, ρ⟩ fun r => ∀ c : Dev nD,
      r.2.mem ((c.tc : Thread nD τ).loc main_v0_0) = gateArr (m ((c.tc : Thread nD τ).loc main_arg0))
      ∧ r.2.mem ((c.tc : Thread nD τ).loc main_v3) = routedArr (m ((c.tc : Thread nD τ).loc main_arg0))
      ∧ r.2.mem ((c.tc : Thread nD τ).loc main_v0_2) = dispatchArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).1 2).trans (final2 m c),
      ((h c).2 main_v3 (Pipeline.mem_restRefs_of main_v3 (by decide) (by decide))).trans (tail_v3 m c),
      ((h c).1 4).trans (final4 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.GateValue

end
-- ==== Proof.RefValue.lean ====
/-
  The reference computes the specification.

  Read one operation at a time at an index, the reference's gate is `1 / (1 + |x / 1| ^ 4)` of the entry, which is the
  specification's gate (the law of the fourth power); its mask compares that gate with one half; its `where` keeps the
  gate under the mask and puts zero elsewhere; and its product of the two broadcasts at `(b, p, d)` is that weight at
  `(b, p)` times the activation at `(b, d)`. So the reference's run ends with its three results at the specification's
  three arrays of the arguments.
-/
import proofs.«175300_j74062416052252_1_alg».proof.Proof.Gen.ReferenceIdeal.Run
import proofs.«175300_j74062416052252_1_alg».proof.Proof.Gen.ReferenceIdeal.Read
import Idealize.ShloMosaic.Lib.ValueIdx
import proofs.«175300_j74062416052252_1_alg».proof.Proof.GateSpec

noncomputable section

namespace Cert.ReferenceIdeal.GateRef

open Cert.ReferenceIdeal Cert.ReferenceIdeal.Gen Cert.ReferenceIdeal.Read
open Idealize.ShloMosaic Idealize.ShloMosaic.TcCoe Idealize.SL.Sem Idealize.ShloMosaic.ValueIdx
open Cert.GateSpec (gate routed weight gateArr routedArr dispatchArr ref_gate)

/-- The reference's gate at an entry is the specification's. -/
theorem gate_apply (x0 : (⟨S4096x64, .f32⟩ : BufTy).Contents (Elt Ideal)) (i : S4096x64.Idx) :
    val_main_v8 (F := Ideal) x0 i = gate (F := Ideal) (x0 i) := by
  rw [val_main_v8_apply, val_main_v7_apply, val_main_cst_2_apply, val_main_v6_apply, val_main_v5_apply,
    val_main_cst_1_apply, val_main_v4_apply, val_main_v2_apply, val_main_v1_apply, val_main_v0_apply,
    val_main_cst_apply, val_main_v3_apply, val_main_cst_0_apply]
  exact ref_gate (x0 i)

/-- The reference's mask at an entry is the routing decision. -/
theorem mask_apply (x0 : (⟨S4096x64, .f32⟩ : BufTy).Contents (Elt Ideal)) (i : S4096x64.Idx) :
    val_main_v10 (F := Ideal) x0 i = routed (F := Ideal) (x0 i) := by
  rw [val_main_v10_apply, gate_apply, val_main_v9_apply, val_main_cst_3_apply]
  rfl

/-- The reference's `where` at an entry is the weight. -/
theorem where_apply (x0 : (⟨S4096x64, .f32⟩ : BufTy).Contents (Elt Ideal)) (i : S4096x64.Idx) :
    val_main_v11 (F := Ideal) x0 i = weight (F := Ideal) (x0 i) := by
  rw [val_main_v11_apply, mask_apply, gate_apply, val_main_call0_v1_apply, val_main_call0_v0_apply, val_main_cst_4_apply]
  rfl

/-- The weight's two broadcasts read row `b` and node `p`. -/
theorem idx_weight (j : S4096x64x512.Idx) : idx_main_v12 (idx_main_v14 j) = ix2 (j 0) (j 1) :=
  funext fun a => Fin.ext (by match a with | ⟨0, _⟩ => rfl | ⟨1, _⟩ => rfl)

/-- The activation's two broadcasts read row `b` and feature `d`. -/
theorem idx_act (j : S4096x64x512.Idx) : idx_main_v13 (idx_main_v15 j) = ix2 (j 0) (j 2) :=
  funext fun a => Fin.ext (by match a with | ⟨0, _⟩ => rfl | ⟨1, _⟩ => rfl)

/-- The reference's product at `(b, p, d)` is the weight at `(b, p)` times the activation at `(b, d)`. -/
theorem dispatch_apply (x0 : (⟨S4096x64, .f32⟩ : BufTy).Contents (Elt Ideal)) (x1 : (⟨S4096x512, .f32⟩ : BufTy).Contents (Elt Ideal))
    (j : S4096x64x512.Idx) : val_main_v16 (F := Ideal) x0 x1 j = dispatchArr (F := Ideal) x0 x1 j := by
  rw [val_main_v16_apply, val_main_v14_apply, val_main_v12_apply, where_apply, val_main_v15_apply, val_main_v13_apply,
    idx_weight, idx_act]
  rfl

/-- The reference's run: the three results are the specification's arrays of the arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v8) = gateArr (F := Ideal) (m ((c.tc : Thread nD τ).loc main_arg0))
      ∧ r.2.mem ((c.tc : Thread nD τ).loc main_v10) = routedArr (F := Ideal) (m ((c.tc : Thread nD τ).loc main_arg0))
      ∧ r.2.mem ((c.tc : Thread nD τ).loc main_v16) = dispatchArr (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨(h c).1.trans ((val_main_v8_eq _).trans (funext (gate_apply _))),
      (h c).2.1.trans ((val_main_v10_eq _).trans (funext (mask_apply _))),
      (h c).2.2.1.trans ((val_main_v16_eq _ _).trans (funext (dispatch_apply _ _))),
      (h c).2.2.2⟩)
    (Cert.ReferenceIdeal.Value.run (F := Ideal) m ρ)

end Cert.ReferenceIdeal.GateRef

end
-- ==== Proof.lean ====
/-
  The gate kernel against its reference, over the extended reals.

  Both programs compute, for `x : [4096, 64]` and `act : [4096, 512]`, the soft gate `g = 1 / (1 + x⁴)`, the routing
  mask `g ≥ 1/2`, and the dispatched tensor `where(mask, g, 0)[b, p] · act[b, d]`. The kernel spells `x⁴` as two
  squarings of `x · 1`, the reference as the real power `4` of `|x / 1|`; on every extended real these agree
  (Proof/GateLaw.lean), so the two gates are one function, and the mask and the dispatched tensor are the same functions
  of the gate on both sides. The kernel stores its mask as a word and the host compares it with zero afterwards, which
  gives the bit back. Proof/GateSpec.lean states the three results as functions of the arguments; Proof/KernelValue.lean
  shows the kernel's run ends at them (block by block, the blocks tiling the arrays), Proof/RefValue.lean that the
  reference's run does; here the two runs are set side by side. The precondition is not used: the law of the fourth
  power holds at the infinities too.
-/
import proofs.«175300_j74062416052252_1_alg».proof.Defs
import proofs.«175300_j74062416052252_1_alg».proof.Proof.Gen.Kernel
import proofs.«175300_j74062416052252_1_alg».proof.Proof.Gen.Kernel.Skeleton
import proofs.«175300_j74062416052252_1_alg».proof.Proof.Gen.Kernel.Launch
import proofs.«175300_j74062416052252_1_alg».proof.Proof.Gen.Kernel.Points
import proofs.«175300_j74062416052252_1_alg».proof.Proof.Gen.Kernel.Frame
import proofs.«175300_j74062416052252_1_alg».proof.Proof.Gen.KernelIdeal
import proofs.«175300_j74062416052252_1_alg».proof.Proof.Gen.KernelIdeal.Skeleton
import proofs.«175300_j74062416052252_1_alg».proof.Proof.Gen.KernelIdeal.Launch
import proofs.«175300_j74062416052252_1_alg».proof.Proof.Gen.KernelIdeal.Points
import proofs.«175300_j74062416052252_1_alg».proof.Proof.Gen.KernelIdeal.Frame
import proofs.«175300_j74062416052252_1_alg».proof.Proof.Gen.ReferenceIdeal
import proofs.«175300_j74062416052252_1_alg».proof.Proof.Gen.ReferenceIdeal.Run
import proofs.«175300_j74062416052252_1_alg».proof.Proof.Gen.Pre_finite_inputs
import proofs.«175300_j74062416052252_1_alg».proof.Proof.KernelValue
import proofs.«175300_j74062416052252_1_alg».proof.Proof.RefValue
import Idealize.ShloMosaic.Adequacy
import Idealize.ShloMosaic.Init

noncomputable section

namespace Cert.Proof

open Idealize.ShloMosaic Idealize.SL.Sem

/-- The word-level kernel terminates without a fault and leaves its arguments as they were. -/
theorem frame_k : @Cert.frame_Kernel Cert.Kernel.Gen.facts Cert.Pre_finite_inputs.Gen.facts :=
  fun m ρ _ => Cert.Kernel.Gen.frame m ρ

/-- So does the kernel read over the extended reals. -/
theorem frame_ki : @Cert.frame_KernelIdeal Cert.KernelIdeal.Gen.facts Cert.Pre_finite_inputs.Gen.facts :=
  fun m ρ _ => Cert.KernelIdeal.Gen.frame m ρ

/-- And the reference: its run with the results dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2.2.2)
    (Cert.ReferenceIdeal.GateRef.run m ρ)

/-- From arguments that agree, both runs end with the gate, the routing mask and the dispatched tensor of those
    arguments: the same three arrays. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨_, _, _, Cert.KernelIdeal.GateValue.run (F := Ideal) m ρ, ?_⟩
  refine (θ_run Cert.ReferenceIdeal.defs _ _).mono (fun _ h c => ?_) (Cert.ReferenceIdeal.GateRef.run m' ρ')
  obtain ⟨h0, h1, h2, hk⟩ := h c
  obtain ⟨a0, a1, a2⟩ := hagree c
  refine ⟨h0.trans ?_, h1.trans ?_, h2.trans ?_, hk⟩
  · rw [a0]
  · rw [a0]
  · rw [a0, a1]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
